-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 26
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S1x64, .f32⟩
  | .hbm, ⟨25, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Mlp.lean ====
/-
  The function both programs compute, stated once over the extended reals.

  A node's row of 64 features is first summed with the row its neighbours contribute (the aggregate), then goes through
  two dense layers with a rectifier between them:

      out[r, j] = (∑ k, max ((∑ i, (x[r, i] + agg[r, i]) · W1[i, k]) + b1[k]) z · W2[k, j]) + b2[j]

  with `z` the rectifier's floor (the zero word, kept as a parameter and never evaluated). The perceptron acts on each row
  by itself (`mlpRow`), so a block of rows of the result depends only on the same rows of `x` and `agg`: this is what
  lets a tiling of the rows compute the array block by block. The aggregate itself is an operand here: both programs
  compute it by the same operations, and nothing below looks inside it.
-/
import Idealize.ShloMosaic.PureOps.Ideal
import Idealize.ShloMosaic.Lib.ValueIdx

noncomputable section

namespace Cert.Gin

open Idealize.ShloMosaic Idealize.ShloMosaic.ValueIdx

/-- The node-feature arrays: 100000 nodes, 64 features each. -/
abbrev Nodes : Shape := ⟨2, ![100000, 64]⟩
/-- A dense layer's weights: 64 inputs by 64 outputs. -/
abbrev Weights : Shape := ⟨2, ![64, 64]⟩

/-- The two-layer perceptron on ONE row `h` of 64 features, at output feature `j`: the first layer's 64 sums, each
    shifted by its bias and floored at `z`, then the second layer's sum and bias. -/
def mlpRow (h : Fin 64 → EReal) (W1 : Weights.Idx → EReal) (b1 : Fin 64 → EReal) (W2 : Weights.Idx → EReal)
    (b2 : Fin 64 → EReal) (z : EReal) (j : Fin 64) : EReal :=
  (∑ k : Fin 64, max ((∑ i : Fin 64, h i * W1 (ix2 i k)) + b1 k) z * W2 (ix2 k j)) + b2 j

/-- The whole result: at node `r` and feature `j`, the perceptron on row `r` of `x + agg`. -/
def gin (x agg : Nodes.Idx → EReal) (W1 : Weights.Idx → EReal) (b1 : Fin 64 → EReal) (W2 : Weights.Idx → EReal)
    (b2 : Fin 64 → EReal) (z : EReal) : Nodes.Idx → EReal :=
  fun i => mlpRow (fun k => x (ix2 (i 0) k) + agg (ix2 (i 0) k)) W1 b1 W2 b2 z (i 1)

/-- Read at the coordinates `(r, j)`. -/
theorem gin_ix2 (x agg : Nodes.Idx → EReal) (W1 : Weights.Idx → EReal) (b1 : Fin 64 → EReal) (W2 : Weights.Idx → EReal)
    (b2 : Fin 64 → EReal) (z : EReal) (r : Fin 100000) (j : Fin 64) :
    gin x agg W1 b1 W2 b2 z (ix2 r j) = mlpRow (fun k => x (ix2 r k) + agg (ix2 r k)) W1 b1 W2 b2 z j := rfl

end Cert.Gin

end
-- ==== Proof.RefGin.lean ====
/-
  The reference's result is the specification's `gin`.

  The reference adds the aggregate to `x`, multiplies by `W1` (a contraction of the feature axis, a sum over 64 terms at
  the exact instance), adds the bias broadcast along the rows, floors at zero, and does the same with `W2` and `b2`. Read at
  an index `(r, j)`, stage by stage, that is the perceptron on row `r` of `x + agg` at feature `j`. The aggregate (the
  gather of source rows scattered-and-added to destination rows) stays the named stage it is: it is an operand of `gin`.
-/
import proofs.«154044_j31190052504404_1_alg».proof.Proof.Gen.ReferenceIdeal.Read
import proofs.«154044_j31190052504404_1_alg».proof.Proof.Mlp

noncomputable section

namespace Cert.Gin.Ref

open Cert.ReferenceIdeal Cert.ReferenceIdeal.Gen Cert.ReferenceIdeal.Read
open Idealize.ShloMosaic Idealize.ShloMosaic.ValueIdx

/-! ## Where each stage reads its operands, at node `r` and feature `j` -/

/-- The second product reads row `r` of the hidden layer, -/
theorem hidden_row (r : Fin 100000) (j k : Fin 64) : lidx_main_v20 (ix2 r j) k = ix2 r k :=
  funext fun a => by match a with | ⟨0, _⟩ => rfl | ⟨1, _⟩ => rfl
/-- and column `j` of `W2`. -/
theorem w2_col (r : Fin 100000) (j k : Fin 64) : ridx_main_v20 (ix2 r j) k = ix2 k j :=
  funext fun a => by match a with | ⟨0, _⟩ => rfl | ⟨1, _⟩ => rfl
/-- The first product reads row `r` of `x + agg`, -/
theorem input_row (r : Fin 100000) (j k : Fin 64) : lidx_main_v15 (ix2 r j) k = ix2 r k :=
  funext fun a => by match a with | ⟨0, _⟩ => rfl | ⟨1, _⟩ => rfl
/-- and column `j` of `W1`. -/
theorem w1_col (r : Fin 100000) (j k : Fin 64) : ridx_main_v15 (ix2 r j) k = ix2 k j :=
  funext fun a => by match a with | ⟨0, _⟩ => rfl | ⟨1, _⟩ => rfl
/-- A bias broadcast along the rows is read at the feature coordinate alone. -/
theorem b1_at (r : Fin 100000) (j : Fin 64) : idx_main_v16 (idx_main_v17 (ix2 r j)) = ix1 j :=
  funext fun a => by match a with | ⟨0, _⟩ => rfl
theorem b2_at (r : Fin 100000) (j : Fin 64) : idx_main_v21 (idx_main_v22 (ix2 r j)) = ix1 j :=
  funext fun a => by match a with | ⟨0, _⟩ => rfl

/-! ## The result -/

/-- The reference's last stage is `gin` of the arguments, with the aggregate stage as its second operand and the
    rectifier's floor the zero word. -/
theorem result_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    val_main_v23 (F := Ideal) x0 x1 x2 x3 x4 x5
      = Cert.Gin.gin x0 (val_main_v13 (F := Ideal) x0 x1) x2 (fun a => x3 (ix1 a)) x4 (fun a => x5 (ix1 a))
          (Ideal.ofBits .f32 0x00000000#32) := by
  funext i
  obtain ⟨r, j, rfl⟩ : ∃ (r : Fin 100000) (j : Fin 64), i = ix2 r j := ⟨i 0, i 1, eq_ix2 i⟩
  rw [Cert.Gin.gin_ix2, val_main_v23_apply, val_main_v20_apply, val_main_v22_apply, val_main_v21_apply, b2_at]
  show _ + _ = (∑ k : Fin 64, _) + _
  refine congrArg (· + x5 (ix1 j)) (Finset.sum_congr rfl fun k _ => ?_)
  rw [hidden_row, w2_col, val_main_v19_apply, val_main_v18_apply, val_main_v15_apply, val_main_v17_apply,
    val_main_v16_apply, b1_at, val_main_call0_v0_apply, val_main_call0_cst_apply]
  show max ((∑ l : Fin 64, _) + _) _ * _ = max ((∑ l : Fin 64, _) + _) _ * _
  refine congrArg (fun s => max (s + x3 (ix1 k)) (Ideal.ofBits .f32 0x00000000#32) * x4 (ix2 k j))
    (Finset.sum_congr rfl fun l _ => ?_)
  rw [input_row, w1_col, val_main_v14_apply]
  rfl

end Cert.Gin.Ref

end
-- ==== Proof.Body.lean ====
/-
  What the kernel body writes, at one entry of its block.

  At a grid point the body holds a block of 5000 rows of `x` and of the aggregate, the two weight matrices and the two
  biases as 1×64 rows. It adds the two blocks, multiplies by `W1` into a zero accumulator, adds the bias row broadcast
  down the block, floors at zero, and repeats with `W2` and the second bias; the changes of float format in between are
  the identity at the exact instance. A product into a zero accumulator is, entry by entry, the sum over the contracted
  feature axis. So the entry `(p, q)` of the block written is the perceptron of the specification on row `p` of the sum
  of the two input blocks, at feature `q`: the body never mixes rows.
-/
import proofs.«154044_j31190052504404_1_alg».proof.Proof.Gen.KernelIdeal.Skeleton
import proofs.«154044_j31190052504404_1_alg».proof.Proof.Mlp
import Idealize.ShloMosaic.Lib.Pipeline.Value
import Idealize.ShloMosaic.Lib.ValueIdx
import Idealize.ShloMosaic.PureOps.Ideal.Laws

noncomputable section

namespace Cert.Gin.Body

open Cert.KernelIdeal Cert.KernelIdeal.Gen
open Idealize.ShloMosaic Idealize.ShloMosaic.ValueIdx

/-! ## The product's operand indices: rows of the left operand, columns of the right -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_contr (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_contr (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's product into a zero accumulator, at `(p, q)`: row `p` of the left operand against column `q` of the
    right, summed over the 64 contracted features. -/
theorem product_at {φ₁ φ₂ : FTy} (lhs : FVec Ideal S5000x64 φ₁) (rhs : FVec Ideal S64x64 φ₂) (p : Fin 5000) (q : Fin 64) :
    matmul dot_S5000x64_S64x64_S5000x64_1_0_0_1_n_n none lhs rhs (constant S5000x64 .f32 0x00000000#32) (ix2 p q)
      = ∑ k : Fin 64, lhs (ix2 p k) * rhs (ix2 k q) := by
  show FloatOps.matmul dot_S5000x64_S64x64_S5000x64_1_0_0_1_n_n none lhs rhs (constant S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_contr _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_contr _ _).trans hk
    | ⟨1, _⟩ => exact rhs_col _ _)
  rw [el, er]

/-- A 1×64 row broadcast down the block is read at the feature coordinate alone. -/
theorem bias_at (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => by
    match a with
    | ⟨0, _⟩ => show 0 = if (1 : Nat) = 1 then 0 else _; rw [if_pos rfl]
    | ⟨1, _⟩ => show q.val = if (64 : Nat) = 1 then 0 else q.val; rw [if_neg (by decide)])

/-! ## The payload -/

/-- THE BODY'S STORE at `(p, q)`: the perceptron on row `p` of the sum of the two input blocks. -/
theorem payload_at (x agg : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k0_pay1 (F := Ideal) x agg w1 b1 w2 b2 (ix2 p q)
      = Cert.Gin.mlpRow (fun k => x (ix2 p k) + agg (ix2 p k)) w1 (fun a => b1 (ix2 0 a)) w2 (fun a => b2 (ix2 0 a))
          (Ideal.ofBits .f32 0x00000000#32) q := by
  unfold k0_pay1
  rw [addf_apply, product_at, bias_at]
  unfold Cert.Gin.mlpRow
  refine congrArg (· + b2 (ix2 0 q)) (Finset.sum_congr rfl fun k _ => ?_)
  rw [truncf_apply, truncf_apply, maximumf_apply, addf_apply, product_at, bias_at]
  refine congrArg (fun s => max (s + b1 (ix2 0 k)) (Ideal.ofBits .f32 0x00000000#32) * w2 (ix2 k q))
    (Finset.sum_congr rfl fun l _ => ?_)
  rw [truncf_apply, truncf_apply, addf_apply, shapeCast_self]

end Cert.Gin.Body

end
-- ==== Proof.Blocks.lean ====
/-
  From the blocks the kernel writes to the whole result array.

  The grid has 20 points. At point `t` the kernel is handed rows `5000·t … 5000·t + 4999` of `x` and of the aggregate (all
  64 features), the whole of both weight matrices and of both bias rows, and writes back the same rows of the result.
  By the payload lemma the entry `(p, q)` it writes is the perceptron on row `p` of its blocks, which is row
  `5000·t + p` of the arrays: so what point `t` writes back is block `t` of ONE whole-array function, `gin` of the arrays
  as the region finds them. The 20 blocks cover the 100000 rows (row `r` lies in block `r / 5000`), so after the run the
  result array is that function. The biases reach the region as 1×64 reshapes of the 64-vectors: entry `(0, a)` of the
  reshape is entry `a` of the vector.
-/
import proofs.«154044_j31190052504404_1_alg».proof.Proof.Gen.KernelIdeal.Value
import proofs.«154044_j31190052504404_1_alg».proof.Proof.Body
import Idealize.ShloMosaic.Lib.StableHlo.Run

set_option maxRecDepth 16384

noncomputable section

namespace Cert.Gin.Blocks

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx

variable (m : (ℓ : Loc nD τ sig) → Buf (Elt Ideal) ℓ) (ρ : Dev nD → PrngReg)

/-! ## The arrays as the region finds them, at their literal types -/

abbrev xArr (c : Dev nD) : Vec Ideal S100000x64 .f32 := V m c main_arg0
abbrev aggArr (c : Dev nD) : Vec Ideal S100000x64 .f32 := V m c main_v13
abbrev w1Arr (c : Dev nD) : Vec Ideal S64x64 .f32 := V m c main_arg2
abbrev b1Arr (c : Dev nD) : Vec Ideal S1x64 .f32 := V m c main_v14
abbrev w2Arr (c : Dev nD) : Vec Ideal S64x64 .f32 := V m c main_arg4
abbrev b2Arr (c : Dev nD) : Vec Ideal S1x64 .f32 := V m c main_v15

/-- The result as ONE function of those arrays. -/
def whole (c : Dev nD) : S100000x64.Idx → EReal :=
  Cert.Gin.gin (xArr m c) (aggArr m c) (w1Arr m c) (fun a => b1Arr m c (ix2 0 a)) (w2Arr m c) (fun a => b2Arr m c (ix2 0 a))
    (Ideal.ofBits .f32 0x00000000#32)

/-! ## One entry of one block -/

/-- If a block of rows and the arrays agree on row `p` of the block and row `r` of the arrays, and the weights and biases
    are the arrays', then the body's store at `(p, q)` is `gin` of the arrays at `(r, q)`. -/
theorem entry_eq (X A : Vec Ideal S100000x64 .f32) (W1 : Vec Ideal S64x64 .f32) (B1 : Vec Ideal S1x64 .f32)
    (W2 : Vec Ideal S64x64 .f32) (B2 : Vec Ideal S1x64 .f32)
    (x agg : Vec Ideal S5000x64 .f32) (w1 : Vec Ideal S64x64 .f32) (b1 : Vec Ideal S1x64 .f32)
    (w2 : Vec Ideal S64x64 .f32) (b2 : Vec Ideal S1x64 .f32) (p : Fin 5000) (q : Fin 64) (r : Fin 100000)
    (hx : ∀ k : Fin 64, x (ix2 p k) = X (ix2 r k)) (ha : ∀ k : Fin 64, agg (ix2 p k) = A (ix2 r k))
    (hw1 : w1 = W1) (hb1 : b1 = B1) (hw2 : w2 = W2) (hb2 : b2 = B2) :
    k0_pay1 (F := Ideal) x agg w1 b1 w2 b2 (ix2 p q)
      = Cert.Gin.gin X A W1 (fun a => B1 (ix2 0 a)) W2 (fun a => B2 (ix2 0 a)) (Ideal.ofBits .f32 0x00000000#32) (ix2 r q) := by
  subst hw1 hb1 hw2 hb2
  rw [Cert.Gin.Body.payload_at, Cert.Gin.gin_ix2]
  simp only [hx, ha]

/-! ## The index maps over the grid -/

theorem hz : (![0, 0] : Fin 2 → Nat) = fun _ => 0 := funext fun a => by fin_cases a <;> rfl

/-- Decided over the 20 points: the row blocks of `x`, the aggregate and the result move with the point; the weights and
    the biases are whole at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 20 := Nat.lt_of_lt_of_eq t.isLt N_0

/-! ## The blocks at a point, at their literal types, and what they hold -/

abbrev xBlk (c : Dev nD) (t : Fin cfg0.N) : Vec Ideal S5000x64 .f32 := iblk m c 0 t
abbrev aggBlk (c : Dev nD) (t : Fin cfg0.N) : Vec Ideal S5000x64 .f32 := iblk m c 1 t
abbrev w1Blk (c : Dev nD) (t : Fin cfg0.N) : Vec Ideal S64x64 .f32 := iblk m c 2 t
abbrev b1Blk (c : Dev nD) (t : Fin cfg0.N) : Vec Ideal S1x64 .f32 := iblk m c 3 t
abbrev w2Blk (c : Dev nD) (t : Fin cfg0.N) : Vec Ideal S64x64 .f32 := iblk m c 4 t
abbrev b2Blk (c : Dev nD) (t : Fin cfg0.N) : Vec Ideal S1x64 .f32 := iblk m c 5 t

/-- Row `p` of point `t`'s block of `x` is row `5000·t + p` of `x`. -/
theorem x_rows (c : Dev nD) (t : Fin cfg0.N) (p : Fin 5000) (k : Fin 64) (hr : t.val * 5000 + p.val < 100000) :
    xBlk m c t (ix2 p k) = xArr m c (ix2 (⟨t.val * 5000 + p.val, hr⟩ : Fin 100000) k) := by
  obtain ⟨e00, e01, -⟩ := index_facts t
  show V m c main_arg0 (((cfg0.win 0).blk t).view.emb (ix2 p k)) = V m c main_arg0 (ix2 (⟨t.val * 5000 + p.val, hr⟩ : Fin 100000) k)
  refine congrArg (V m c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- Point `t`'s block of ANY array laid out like the aggregate: its row `p` is the array's row `5000·t + p`. (Stated for
    an arbitrary array, so that what the host operations put in the aggregate's buffer is never looked into.) -/
theorem agg_view (t : Fin cfg0.N) (Y : Vec Ideal S100000x64 .f32) (p : Fin 5000) (k : Fin 64) (hr : t.val * 5000 + p.val < 100000) :
    ((cfg0.win 1).blk t).view.read (Elt Ideal) Y (ix2 p k) = Y (ix2 (⟨t.val * 5000 + p.val, hr⟩ : Fin 100000) k) := by
  obtain ⟨-, -, e10, e11, -⟩ := index_facts t
  show Y (((cfg0.win 1).blk t).view.emb (ix2 p k)) = Y (ix2 (⟨t.val * 5000 + p.val, hr⟩ : Fin 100000) k)
  refine congrArg Y (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

/-- The same rows of the aggregate. -/
theorem agg_rows (c : Dev nD) (t : Fin cfg0.N) (p : Fin 5000) (k : Fin 64) (hr : t.val * 5000 + p.val < 100000) :
    aggBlk m c t (ix2 p k) = aggArr m c (ix2 (⟨t.val * 5000 + p.val, hr⟩ : Fin 100000) k) :=
  agg_view t (aggArr m c) p k hr

/-- The weights and the bias rows are handed over whole at every point. -/
theorem w1_whole (c : Dev nD) (t : Fin cfg0.N) : w1Blk m c t = w1Arr m c := by
  obtain ⟨-, -, -, -, e20, e21, -⟩ := index_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- A one-row window on ANY 1×64 array is the whole array, at every point. -/
theorem b1_view (t : Fin cfg0.N) (Y : Vec Ideal S1x64 .f32) : ((cfg0.win 3).blk t).view.read (Elt Ideal) Y = Y := by
  obtain ⟨-, -, -, -, -, -, e30, e31, -⟩ := index_facts t
  funext y
  show Y (((cfg0.win 3).blk t).view.emb y) = Y y
  refine congrArg Y (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem b1_whole (c : Dev nD) (t : Fin cfg0.N) : b1Blk m c t = b1Arr m c := b1_view t (b1Arr m c)

theorem w2_whole (c : Dev nD) (t : Fin cfg0.N) : w2Blk m c t = w2Arr m c := by
  obtain ⟨-, -, -, -, -, -, -, -, e40, e41, -⟩ := index_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem b2_view (t : Fin cfg0.N) (Y : Vec Ideal S1x64 .f32) : ((cfg0.win 5).blk t).view.read (Elt Ideal) Y = Y := by
  obtain ⟨-, -, -, -, -, -, -, -, -, -, e50, e51, -⟩ := index_facts t
  funext y
  show Y (((cfg0.win 5).blk t).view.emb y) = Y y
  refine congrArg Y (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem b2_whole (c : Dev nD) (t : Fin cfg0.N) : b2Blk m c t = b2Arr m c := b2_view t (b2Arr m c)

/-- Entry `(p, q)` of point `t`'s result block sits at row `5000·t + p` of the result. -/
theorem out_at (t : Fin cfg0.N) (p : Fin 5000) (q : Fin 64) (hr : t.val * 5000 + p.val < 100000) :
    ((cfg0.win 6).blk t).view.emb (ix2 p q) = ix2 (⟨t.val * 5000 + p.val, hr⟩ : Fin 100000) q := by
  obtain ⟨-, -, -, -, -, -, -, -, -, -, -, -, e60, e61⟩ := index_facts t
  funext a; apply Fin.ext
  match a with
  | ⟨0, _⟩ => show win0_6.index t (0 : Fin 2) * 5000 + 1 * p.val = t.val * 5000 + p.val; omega
  | ⟨1, _⟩ => show win0_6.index t (1 : Fin 2) * 64 + 1 * q.val = q.val; omega

/-! ## What point `t` writes back -/

/-- The body's store at `(p, q)` of point `t`, over the named blocks, is `whole` at row `5000·t + p`. -/
theorem store_at (c : Dev nD) (t : Fin cfg0.N) (p : Fin 5000) (q : Fin 64) (hr : t.val * 5000 + p.val < 100000) :
    k0_pay1 (F := Ideal) (xBlk m c t) (aggBlk m c t) (w1Blk m c t) (b1Blk m c t) (w2Blk m c t) (b2Blk m c t) (ix2 p q)
      = whole m c (ix2 (⟨t.val * 5000 + p.val, hr⟩ : Fin 100000) q) :=
  entry_eq (xArr m c) (aggArr m c) (w1Arr m c) (b1Arr m c) (w2Arr m c) (b2Arr m c)
    (xBlk m c t) (aggBlk m c t) (w1Blk m c t) (b1Blk m c t) (w2Blk m c t) (b2Blk m c t) p q ⟨t.val * 5000 + p.val, hr⟩
    (fun k => x_rows m c t p k hr) (fun k => agg_rows m c t p k hr)
    (w1_whole m c t) (b1_whole m c t) (w2_whole m c t) (b2_whole m c t)

/-- WHAT POINT `t` WRITES BACK is block `t` of `whole`. -/
theorem flushed_eq (c : Dev nD) (t : Fin cfg0.N) :
    (dats m 0 c).flushed 6 t = ((cfg0.win 6).blk t).view.read (Elt Ideal) (whole m c) := by
  rw [Cert.KernelIdeal.Value.flushed6]
  unfold out0_6
  rw [View.canon_unit_zero hz]
  simp only [View.ld_unit_zero (S := S5000x64) hz, View.ld_unit_zero (S := S64x64) hz, View.ld_unit_zero (S := S1x64) hz]
  have ht := point_lt t
  funext j
  obtain ⟨p, q, rfl⟩ : ∃ (p : Fin 5000) (q : Fin 64), j = ix2 p q := ⟨j 0, j 1, eq_ix2 j⟩
  have hp := p.isLt
  have hr : t.val * 5000 + p.val < 100000 := by omega
  show k0_pay1 (F := Ideal) (xBlk m c t) (aggBlk m c t) (w1Blk m c t) (b1Blk m c t) (w2Blk m c t) (b2Blk m c t) (ix2 p q)
    = whole m c (((cfg0.win 6).blk t).view.emb (ix2 p q))
  rw [out_at t p q hr]
  exact store_at m c t p q hr

/-! ## The blocks cover the array -/

/-- An index of the result is in point `t`'s block iff each coordinate is in the block's range on its axis. -/
theorem mem_block (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Row `r` lies in block `r / 5000`. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_6 _, ?_⟩
  rw [mem_block]
  obtain ⟨-, -, -, -, -, -, -, -, -, -, -, -, e60, e61⟩ := index_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e60]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e61]; omega

/-- THE RESULT ARRAY after the run is `whole`. -/
theorem final (c : Dev nD) : (dats m 0 c).arrAt 6 cfg0.N = whole m c :=
  (dats m 0 c).arrAt_eq_of_cover 6 (whole m c) (fun t _ => flushed_eq m c t) covered

/-! ## The biases as the region finds them -/

/-- Entry `(0, a)` of a 64-vector reshaped to one row is entry `a` of the vector. -/
theorem row_of_vector (b : Vec Ideal S64 .f32) (a : Fin 64) :
    shapeCast S1x64 b shapeCasts_S64_S1x64 (ix2 0 a) = b (ix1 a) :=
  shapeCast_apply b shapeCasts_S64_S1x64 (ix2 0 a) (ix1 a)
    (by rw [Shape.rowMajor_val_two, Shape.rowMajor_val_one]; show a.val = 0 * 64 + a.val; omega)

theorem b1_eq (c : Dev nD) : (V m c main_v14 : Vec Ideal S1x64 .f32) = shapeCast S1x64 (m ((c : Thread nD τ).loc main_arg3)) shapeCasts_S64_S1x64 := by
  dsimp only [Gen.V, Gen.hostOps0]; after_results; rfl

theorem b2_eq (c : Dev nD) : (V m c main_v15 : Vec Ideal S1x64 .f32) = shapeCast S1x64 (m ((c : Thread nD τ).loc main_arg5)) shapeCasts_S64_S1x64 := by
  dsimp only [Gen.V, Gen.hostOps0]; after_results; rfl

/-- `whole` over the ARGUMENTS: the arrays no host operation wrote are the arguments, the bias rows are the arguments'
    reshapes; the aggregate stays the array the host prefix left. -/
theorem whole_eq (c : Dev nD) :
    whole m c = Cert.Gin.gin (m ((c : Thread nD τ).loc main_arg0)) (V m c main_v13) (m ((c : Thread nD τ).loc main_arg2))
      (fun a => m ((c : Thread nD τ).loc main_arg3) (ix1 a)) (m ((c : Thread nD τ).loc main_arg4))
      (fun a => m ((c : Thread nD τ).loc main_arg5) (ix1 a)) (Ideal.ofBits .f32 0x00000000#32) := by
  unfold whole
  have h1 : (fun a : Fin 64 => b1Arr m c (ix2 0 a)) = fun a => m ((c : Thread nD τ).loc main_arg3) (ix1 a) :=
    funext fun a => by show (V m c main_v14 : Vec Ideal S1x64 .f32) (ix2 0 a) = _; rw [b1_eq, row_of_vector]
  have h2 : (fun a : Fin 64 => b2Arr m c (ix2 0 a)) = fun a => m ((c : Thread nD τ).loc main_arg5) (ix1 a) :=
    funext fun a => by show (V m c main_v15 : Vec Ideal S1x64 .f32) (ix2 0 a) = _; rw [b2_eq, row_of_vector]
  rw [h1, h2]
  show Cert.Gin.gin (V m c main_arg0) (V m c main_v13) (V m c main_arg2) _ (V m c main_arg4) _ _ = _
  rw [V_main_arg0, V_main_arg2, V_main_arg4]

/-! ## The run -/

/-- The kernel's run: the result array ends at `gin` of the arguments and the aggregate the host prefix computed; the
    arguments end unchanged. -/
theorem run : θ_run defs (onTc (τ := τ) (main (F := Ideal))) ⟨m, fun _ => 0, ρ⟩ fun r => ∀ c : Dev nD,
      r.2.mem ((c : Thread nD τ).loc main_v16)
        = Cert.Gin.gin (m ((c : Thread nD τ).loc main_arg0)) (V m c main_v13) (m ((c : Thread nD τ).loc main_arg2))
            (fun a => m ((c : Thread nD τ).loc main_arg3) (ix1 a)) (m ((c : Thread nD τ).loc main_arg4))
            (fun a => m ((c : Thread nD τ).loc main_arg5) (ix1 a)) (Ideal.ofBits .f32 0x00000000#32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (final m c)).trans (whole_eq m c), (h c).2⟩)
    (Cert.KernelIdeal.Value.run_blocks m ρ)

end Cert.Gin.Blocks

end
-- ==== Proof.Agg.lean ====
/-
  The aggregate is the same array in both programs.

  Before its one region the kernel's program computes the neighbour aggregate by the very operations the reference
  uses: the source and destination rows of the edge list are sliced out, a negative source index is wrapped by the node
  count, the source rows of `x` are gathered, and the gathered rows are scattered-and-added into a zero array at the
  destination indices. Operation by operation the two texts coincide, so the array the kernel's region is handed is the
  reference's aggregate stage of the same arguments; nothing here looks inside the gather or the scatter.
-/
import proofs.«154044_j31190052504404_1_alg».proof.Proof.Gen.KernelIdeal.Frame
import proofs.«154044_j31190052504404_1_alg».proof.Proof.Gen.ReferenceIdeal.Read
import Idealize.ShloMosaic.Lib.StableHlo.Run

noncomputable section

namespace Cert.Gin.Agg

open Idealize.ShloMosaic Idealize.ShloMosaic.TcCoe Idealize.SL.Sem Idealize.ShloMosaic.StableHlo

/-- What the kernel's host prefix leaves in the aggregate's buffer is the reference's aggregate stage of the kernel's
    first two arguments. -/
theorem agg_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v13 : Vec Ideal Cert.KernelIdeal.S100000x64 .f32)
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results
  rfl

end Cert.Gin.Agg

end
-- ==== Proof.lean ====
/-
  A graph-isomorphism layer: each node's 64 features are summed with the features of its in-neighbours (the aggregate),
  and the sum goes through a two-layer perceptron with a rectifier,

      out[r, j] = (∑ k, max ((∑ i, (x[r, i] + agg[r, i]) · W1[i, k]) + b1[k]) 0 · W2[k, j]) + b2[j].

  The reference computes this with whole-array operations. The kernel's program computes the aggregate by the same
  whole-array operations and hands the perceptron to one region that walks the 100000 rows in 20 blocks of 5000, with
  its two products taken in a narrower float format. Over the extended reals a change of float format is the identity
  and a product into a zero accumulator is the plain sum over the contracted axis; the perceptron never mixes rows, so
  the 20 blocks written are the 20 row blocks of one whole-array function, which is the reference's. No algebraic law
  beyond that is needed: both sides are the same sums in the same arrangement, and the precondition is not used.

  `Proof/Mlp.lean` states the function; `Proof/RefGin.lean` reads the reference's stages into it; `Proof/Body.lean` reads
  the kernel body's store into it at one entry; `Proof/Blocks.lean` goes from the blocks to the array; `Proof/Agg.lean`
  identifies the two programs' aggregates. Below, the five conjuncts.
-/
import proofs.«154044_j31190052504404_1_alg».proof.Defs
import proofs.«154044_j31190052504404_1_alg».proof.Proof.Gen.Kernel
import proofs.«154044_j31190052504404_1_alg».proof.Proof.Gen.Kernel.Skeleton
import proofs.«154044_j31190052504404_1_alg».proof.Proof.Gen.Kernel.Launch
import proofs.«154044_j31190052504404_1_alg».proof.Proof.Gen.Kernel.Points
import proofs.«154044_j31190052504404_1_alg».proof.Proof.Gen.Kernel.Frame
import proofs.«154044_j31190052504404_1_alg».proof.Proof.Gen.KernelIdeal
import proofs.«154044_j31190052504404_1_alg».proof.Proof.Gen.KernelIdeal.Skeleton
import proofs.«154044_j31190052504404_1_alg».proof.Proof.Gen.KernelIdeal.Launch
import proofs.«154044_j31190052504404_1_alg».proof.Proof.Gen.KernelIdeal.Points
import proofs.«154044_j31190052504404_1_alg».proof.Proof.Gen.KernelIdeal.Frame
import proofs.«154044_j31190052504404_1_alg».proof.Proof.Gen.ReferenceIdeal
import proofs.«154044_j31190052504404_1_alg».proof.Proof.Gen.KernelIdeal.Value
import proofs.«154044_j31190052504404_1_alg».proof.Proof.Gen.ReferenceIdeal.Run
import proofs.«154044_j31190052504404_1_alg».proof.Proof.Gen.ReferenceIdeal.Read
import proofs.«154044_j31190052504404_1_alg».proof.Proof.Gen.Pre_finite_inputs
import proofs.«154044_j31190052504404_1_alg».proof.Proof.Mlp
import proofs.«154044_j31190052504404_1_alg».proof.Proof.RefGin
import proofs.«154044_j31190052504404_1_alg».proof.Proof.Body
import proofs.«154044_j31190052504404_1_alg».proof.Proof.Blocks
import proofs.«154044_j31190052504404_1_alg».proof.Proof.Agg
import Idealize.ShloMosaic.Adequacy
import Idealize.ShloMosaic.Init

noncomputable section

namespace Cert.Proof

open Idealize.ShloMosaic Idealize.ShloMosaic.TcCoe Idealize.SL.Sem

/-- The kernel's program runs and leaves its arguments as they were: the generated frame, at the word level, -/
theorem frame_kernel : Cert.frame_Kernel := fun m ρ _ => Cert.Kernel.Gen.frame m ρ

/-- and over the extended reals. -/
theorem frame_kernel_ideal : Cert.frame_KernelIdeal := fun m ρ _ => Cert.KernelIdeal.Gen.frame m ρ

/-- The reference has no region: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the result array at `gin` of the arguments
    and the shared aggregate: the kernel's by its blocks (`Blocks.run`), the reference's by its stages (`Ref.result_eq`),
    the aggregate the same array on both sides (`Agg.agg_eq`). -/
theorem algebraic : Cert.algebraic_KernelIdeal_ReferenceIdeal := by
  intro m ρ m' ρ' _ hagree
  refine ⟨_, Cert.Gin.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Gin.Ref.result_eq,
    (hagree c).1, (hagree c).2.1, (hagree c).2.2.1, (hagree c).2.2.2.1, (hagree c).2.2.2.2.1, (hagree c).2.2.2.2.2,
    Cert.Gin.Agg.agg_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
